-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x512 : Shape := ⟨2, ![4096, 512]⟩
abbrev S65536x8 : Shape := ⟨2, ![65536, 8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S65536x8 : S_.BroadcastsInDim S65536x8 (![] : Fin 0 → Fin S65536x8.rank)
  reducesTo_S65536x8_S_d0_1 : S65536x8.ReducesTo [0, 1] S_

variable [Facts]

def fn {F : FTy → Type} [FloatOps F] (main_arg0 : FVec F S8192x4096 .f32) (main_arg1 : IVec S4096x512 32) (main_arg2 : FVec F S65536x8 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S65536x8 .f32 := Host.absf main_arg2
  let main_cst_0 : FVec F S_ .f32 := constant S_ .f32 0x7F800000#32
  let main_v5 : FVec F S65536x8 .f32 := broadcastInDim S65536x8 ![] bcast_S_S65536x8 main_cst_0
  let main_v6 : IVec S65536x8 1 := cmpf .olt main_v4 main_v5
  let main_c_1 : IVec S_ 1 := constantI S_ 1 1#1
  let main_v7 : IVec S_ 1 := (fun x v => Host.reduce IntOp.andi x v reducesTo_S65536x8_S_d0_1 h_S_) main_v6 main_c_1
  let main_v8 : IVec S_ 1 := andi main_v3 main_v7
  main_v8
-- ==== Kernel.lean ====
abbrev S8192x4096 : Shape := ⟨2, ![8192, 4096]⟩
abbrev S4096x512 : Shape := ⟨2, ![4096, 512]⟩
abbrev S65536x8 : Shape := ⟨2, ![65536, 8]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 37
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S65536x8, .f32⟩
  | .hbm, ⟨3, _⟩ => ⟨S_, .i32⟩
  | .hbm, ⟨4, _⟩ => ⟨S4096x512, .i32⟩
  | .hbm, ⟨5, _⟩ => ⟨S4096x512, .i32⟩
  | .hbm, ⟨6, _⟩ => ⟨S_, .i32⟩
  | .hbm, ⟨7, _⟩ => ⟨S4096x512, .i32⟩
  | .hbm, ⟨8, _⟩ => ⟨S4096x512, .i32⟩
  | .hbm, ⟨9, _⟩ => ⟨S_, .i32⟩
  | .hbm, ⟨10, _⟩ => ⟨S4096x512, .i32⟩
  | .hbm, ⟨11, _⟩ => ⟨S4096x512, .i32⟩
  | .hbm, ⟨12, _⟩ => ⟨S_, .i32⟩
  | .hbm, ⟨13, _⟩ => ⟨S4096x512, .i32⟩
  | .hbm, ⟨14, _⟩ => ⟨S4096x512, .i1⟩
  | .hbm, ⟨15, _⟩ => ⟨S_, .i32⟩
  | .hbm, ⟨16, _⟩ => ⟨S4096x512, .i32⟩
  | .hbm, ⟨17, _⟩ => ⟨S4096x512, .i32⟩
  | .hbm, ⟨18, _⟩ => ⟨S4096x512, .i32⟩
  | .hbm, ⟨19, _⟩ => ⟨S4096x512x1, .i32⟩
  | .hbm, ⟨20, _⟩ => ⟨S4096x512x8, .f32⟩
  | .hbm, ⟨21, _⟩ => ⟨S_, .i32⟩
  | .hbm, ⟨22, _⟩ => ⟨S4096x512, .i32⟩
  | .hbm, ⟨23, _⟩ => ⟨S4096x512, .i1⟩
  | .hbm, ⟨24, _⟩ => ⟨S_, .i32⟩
  | .hbm, ⟨25, _⟩ => ⟨S4096x512, .i32⟩
  | .hbm, ⟨26, _⟩ => ⟨S4096x512, .i32⟩
  | .hbm, ⟨27, _⟩ => ⟨S4096x512, .i32⟩
  | .hbm, ⟨28, _⟩ => ⟨S4096x512x1, .i32⟩
  | .hbm, ⟨29, _⟩ => ⟨S4096x512x8, .f32⟩
  | .hbm, ⟨30, _⟩ => ⟨S_, .f32⟩
  | .hbm, ⟨31, _⟩ => ⟨S4096x512x8, .f32⟩
  | .hbm, ⟨32, _⟩ => ⟨S4096x512x8, .f32⟩
  | .hbm, ⟨33, _⟩ => ⟨S4096x512x8, .f32⟩
  | .hbm, ⟨34, _⟩ => ⟨S4096x4096, .f32⟩
  | .hbm, ⟨35, _⟩ => ⟨S4096x4096, .bf16⟩
  | .hbm, ⟨36, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_c_1 : Ref sig .tc := ⟨.hbm, 9, rfl⟩
abbrev main_call0_v4 : Ref sig .tc := ⟨.hbm, 10, rfl⟩
abbrev main_call0_v5 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_c_3 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_c_4 : Ref sig .tc := ⟨.hbm, 21, rfl⟩
abbrev main_call0_v13 : Ref sig .tc := ⟨.hbm, 22, rfl⟩
abbrev main_call0_v14 : Ref sig .tc := ⟨.hbm, 23, rfl⟩
abbrev main_call0_c_5 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_cst : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  shapeCasts_S4096x512x8_S4096x4096 : S4096x512x8.ShapeCasts S4096x4096
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024x1024_S1024x1024_0_0 : ∀ a, (![0, 0] : Fin 2 → Nat) a + S1024x1024.size a ≤ S1024x1024.size a
  h_S1024x1024 : 0 < S1024x1024.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  gather_S65536x8_S4096x512x1_S4096x512x8_2_0_n_n_0_2_18_wf : GatherDims.WF S65536x8 S4096x512x1 S4096x512x8 [2] [0] [] [0] [] 2 ![1, 8]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v24) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x512 : Shape := ⟨2, ![4096, 512]⟩
abbrev S65536x8 : Shape := ⟨2, ![65536, 8]⟩
abbrev S_ : Shape := ⟨0, ![]⟩
abbrev S4096x512x1 : Shape := ⟨3, ![4096, 512, 1]⟩
abbrev S4096x512x8 : Shape := ⟨3, ![4096, 512, 8]⟩
abbrev S4096x4096 : Shape := ⟨2, ![4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x512, .i32⟩
  | .hbm, ⟨2, _⟩ => ⟨S65536x8, .f32⟩
  | .hbm, ⟨3, _⟩ => ⟨S_, .i32⟩
  | .hbm, ⟨4, _⟩ => ⟨S4096x512, .i32⟩
  | .hbm, ⟨5, _⟩ => ⟨S4096x512, .i32⟩
  | .hbm, ⟨6, _⟩ => ⟨S_, .i32⟩
  | .hbm, ⟨7, _⟩ => ⟨S4096x512, .i32⟩
  | .hbm, ⟨8, _⟩ => ⟨S4096x512, .i32⟩
  | .hbm, ⟨9, _⟩ => ⟨S_, .i32⟩
  | .hbm, ⟨10, _⟩ => ⟨S4096x512, .i32⟩
  | .hbm, ⟨11, _⟩ => ⟨S4096x512, .i32⟩
  | .hbm, ⟨12, _⟩ => ⟨S_, .i32⟩
  | .hbm, ⟨13, _⟩ => ⟨S4096x512, .i32⟩
  | .hbm, ⟨14, _⟩ => ⟨S4096x512, .i1⟩
  | .hbm, ⟨15, _⟩ => ⟨S_, .i32⟩
  | .hbm, ⟨16, _⟩ => ⟨S4096x512, .i32⟩
  | .hbm, ⟨17, _⟩ => ⟨S4096x512, .i32⟩
  | .hbm, ⟨18, _⟩ => ⟨S4096x512, .i32⟩
  | .hbm, ⟨19, _⟩ => ⟨S4096x512x1, .i32⟩
  | .hbm, ⟨20, _⟩ => ⟨S4096x512x8, .f32⟩
  | .hbm, ⟨21, _⟩ => ⟨S_, .i32⟩
  | .hbm, ⟨22, _⟩ => ⟨S4096x512, .i32⟩
  | .hbm, ⟨23, _⟩ => ⟨S4096x512, .i1⟩
  | .hbm, ⟨24, _⟩ => ⟨S_, .i32⟩
  | .hbm, ⟨25, _⟩ => ⟨S4096x512, .i32⟩
  | .hbm, ⟨26, _⟩ => ⟨S4096x512, .i32⟩
  | .hbm, ⟨27, _⟩ => ⟨S4096x512, .i32⟩
  | .hbm, ⟨28, _⟩ => ⟨S4096x512x1, .i32⟩
  | .hbm, ⟨29, _⟩ => ⟨S4096x512x8, .f32⟩
  | .hbm, ⟨30, _⟩ => ⟨S_, .f32⟩
  | .hbm, ⟨31, _⟩ => ⟨S4096x512x8, .f32⟩
  | .hbm, ⟨32, _⟩ => ⟨S4096x512x8, .f32⟩
  | .hbm, ⟨33, _⟩ => ⟨S4096x512x8, .f32⟩
  | .hbm, ⟨34, _⟩ => ⟨S4096x4096, .f32⟩
  | .hbm, ⟨35, _⟩ => ⟨S4096x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  shapeCasts_S4096x512x8_S4096x4096 : S4096x512x8.ShapeCasts S4096x4096
  transposes_S4096x4096_S4096x4096_1_0 : S4096x4096.Transposes [1, 0] S4096x4096
  gather_S65536x8_S4096x512x1_S4096x512x8_2_0_n_n_0_2_18_wf : GatherDims.WF S65536x8 S4096x512x1 S4096x512x8 [2] [0] [] [0] [] 2 ![1, 8]
  dot_S8192x4096_S4096x4096_S8192x4096_1_0_0_1_n_n_wf : DotDims.WF S8192x4096 S4096x4096 S8192x4096 [1] [0] [0] [1] [] []

variable [Facts₀]

def gather_S65536x8_S4096x512x1_S4096x512x8_2_0_n_n_0_2_18 : GatherDims S65536x8 S4096x512x1 S4096x512x8 where
  offsetDims := [2]
  collapsedSliceDims := [0]
  operandBatchingDims := []
  startIndicesBatchingDims := []
  startIndexMap := [0]
  indexVectorDim := 2
  sliceSizes := ![1, 8]
  wf := gather_S65536x8_S4096x512x1_S4096x512x8_2_0_n_n_0_2_18_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Payload.lean ====
/-
  What one grid point's body computes, read at one entry, on the extended reals.
  The body stores `acc + x · wᵀ`: `x` the point's [1024, 1024] block of the activations (narrowed to bf16, which is the
  identity on extended reals), `w` the point's [2048, 1024] block of the weights, `acc` what the output block held —
  the zero splat at the first point of a run. The matrix unit's product into a zero accumulator is the plain sum over
  the contracted column `k`; entry (p, q) is `acc(p, q) + ∑ k, x(p, k) · w(q, k)`.
-/
import proofs.«400016_j26877905339289_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The contraction of the body's product has one axis, of 1024 columns: the left operand is read at (row, k). -/
theorem lhs_0 (j : S1024x2048.Idx) (q : dot_S1024x1024_S2048x1024_S1024x2048_1_1_0_0_n_n.contr.Idx) :
    (dot_S1024x1024_S2048x1024_S1024x2048_1_1_0_0_n_n.lhsIdx j q 0).val = (j 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs_1 (j : S1024x2048.Idx) (q : dot_S1024x1024_S2048x1024_S1024x2048_1_1_0_0_n_n.contr.Idx) :
    (dot_S1024x1024_S2048x1024_S1024x2048_1_1_0_0_n_n.lhsIdx j q 1).val = (q ⟨0, by decide⟩).val :=
  dot_S1024x1024_S2048x1024_S1024x2048_1_1_0_0_n_n.lhsIdx_val_of_single rfl j q
/-- … and the right operand, whose contracted axis is also its second, at (column, k). -/
theorem rhs_0 (j : S1024x2048.Idx) (q : dot_S1024x1024_S2048x1024_S1024x2048_1_1_0_0_n_n.contr.Idx) :
    (dot_S1024x1024_S2048x1024_S1024x2048_1_1_0_0_n_n.rhsIdx j q 0).val = (j 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs_1 (j : S1024x2048.Idx) (q : dot_S1024x1024_S2048x1024_S1024x2048_1_1_0_0_n_n.contr.Idx) :
    (dot_S1024x1024_S2048x1024_S1024x2048_1_1_0_0_n_n.rhsIdx j q 1).val = (q ⟨0, by decide⟩).val :=
  dot_S1024x1024_S2048x1024_S1024x2048_1_1_0_0_n_n.rhsIdx_val_of_single rfl j q

/-- The first point of a run stores the zero splat. -/
theorem zero_apply (y : S1024x2048.Idx) : k0_pay1 (F := Ideal) y = 0 := by
  show Ideal.ofBits .f32 0x00000000#32 = 0
  exact Ideal.ofBits_zero_f32

/-- THE BODY at entry (p, q): what the block held there plus the row of `x` against the row of `w`. -/
theorem step_apply (x : Vec Ideal S1024x1024 .f32) (acc : Vec Ideal S1024x2048 .f32) (w : Vec Ideal S2048x1024 .bf16)
    (p : Fin 1024) (q : Fin 2048) :
    k0_pay2 (F := Ideal) x acc w (ix2 p q) = acc (ix2 p q) + ∑ k : Fin 1024, x (ix2 p k) * w (ix2 q k) := by
  unfold k0_pay2
  simp only [shapeCast_self, matmul]
  rw [addf_apply]
  refine congrArg (acc (ix2 p q) + ·) ?_
  rw [Ideal.matmul_constant_zero_apply, ← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 p q) ((ValueIdx.contrEquiv1 dot_S1024x1024_S2048x1024_S1024x2048_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S2048x1024_S1024x2048_1_1_0_0_n_n.rhsIdx (ix2 p q) ((ValueIdx.contrEquiv1 dot_S1024x1024_S2048x1024_S1024x2048_1_1_0_0_n_n 1024 rfl rfl).symm k) = ix2 q k := funext fun a => Fin.ext (by
    match a with
    | ⟨0, _⟩ => exact rhs_0 _ _
    | ⟨1, _⟩ => exact (rhs_1 _ _).trans hk)
  rw [el, er]
  rfl

end Cert.KernelIdeal.Payload

end
-- ==== Proof.Blocks.lean ====
/-
  Which entries of the whole arrays a grid point's input blocks hold.
  The grid is [8, 2, 4]: point `t` has coordinates (i, j, k) = (t / 8, t / 4 % 2, t % 4). The activations' window is
  cut in [1024, 1024] blocks and point `t` stages block (i, k): entry (p, c) of the block is entry
  (1024 i + p, 1024 k + c) of the array. The weights' window is cut in [2048, 1024] blocks and point `t` stages block
  (j, k): entry (q, c) of the block is entry (2048 j + q, 1024 k + c) of the weights as the region finds them.
-/
import proofs.«400016_j26877905339289_3_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.SL.Sem
  Idealize.ShloMosaic.ValueIdx

variable {F : FTy → Type} [FloatOps F]
variable (m : (ℓ : Loc nD τ sig) → Buf (Elt F) ℓ)

/-- The activations, as the region finds them. -/
abbrev acts (c : Dev nD) : Vec F S8192x4096 .f32 := V m c main_arg0
/-- The decoded weights, narrowed to bf16, as the region finds them: what the host operations before it wrote. -/
abbrev wts (c : Dev nD) : Vec F S4096x4096 .bf16 := V m c main_call0_v24

/-- Point `n`'s block of the activations, and of the weights. -/
abbrev xblk (c : Dev nD) (n : ℕ) (h : n < cfg0.N) : Vec F S1024x1024 .f32 := iblk m c 0 ⟨n, h⟩
abbrev wblk (c : Dev nD) (n : ℕ) (h : n < cfg0.N) : Vec F S2048x1024 .bf16 := iblk m c 1 ⟨n, h⟩

/-- The printed index maps, decided over the 64 points: the two input windows' block indices from the point's number. -/
theorem index_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4 :=
  (by decide +kernel : ∀ t : Fin grid0.N, _)

/-- Entry (p, k) of point `n`'s activation block is entry (R, C) of the array, whenever R = 1024 (n / 8) + p and
    C = 1024 (n % 4) + k. -/
theorem xblk_apply (c : Dev nD) (n : ℕ) (h : n < cfg0.N) (p k : Fin 1024) (R : Fin 8192) (C : Fin 4096)
    (hR : R.val = 1024 * (n / 8) + p.val) (hC : C.val = 1024 * (n % 4) + k.val) :
    xblk m c n h (ix2 p k) = acts m c (ix2 R C) := by
  obtain ⟨e0, e1, -, -⟩ := index_facts ⟨n, h⟩
  show iblk m c 0 ⟨n, h⟩ (ix2 p k) = _
  unfold iblk
  rw [View.read_apply]
  show V m c main_arg0 _ = V m c main_arg0 _
  congr 1
  funext a
  apply Fin.ext
  match a with
  | ⟨0, _⟩ => show win0_0.index ⟨n, h⟩ (0 : Fin 2) * 1024 + 1 * p.val = R.val; rw [e0, hR]; show n / 8 * 1024 + 1 * p.val = _; omega
  | ⟨1, _⟩ => show win0_0.index ⟨n, h⟩ (1 : Fin 2) * 1024 + 1 * k.val = C.val; rw [e1, hC]; show n % 4 * 1024 + 1 * k.val = _; omega

/-- Entry (q, k) of point `n`'s weight block is entry (R, C) of the weights, whenever R = 2048 (n / 4 % 2) + q and
    C = 1024 (n % 4) + k. -/
theorem wblk_apply (c : Dev nD) (n : ℕ) (h : n < cfg0.N) (q : Fin 2048) (k : Fin 1024) (R C : Fin 4096)
    (hR : R.val = 2048 * (n / 4 % 2) + q.val) (hC : C.val = 1024 * (n % 4) + k.val) :
    wblk m c n h (ix2 q k) = wts m c (ix2 R C) := by
  obtain ⟨-, -, e0, e1⟩ := index_facts ⟨n, h⟩
  show iblk m c 1 ⟨n, h⟩ (ix2 q k) = _
  unfold iblk
  rw [View.read_apply]
  show V m c main_call0_v24 _ = V m c main_call0_v24 _
  congr 1
  funext a
  apply Fin.ext
  match a with
  | ⟨0, _⟩ => show win0_1.index ⟨n, h⟩ (0 : Fin 2) * 2048 + 1 * q.val = R.val; rw [e0, hR]; show n / 4 % 2 * 2048 + 1 * q.val = _; omega
  | ⟨1, _⟩ => show win0_1.index ⟨n, h⟩ (1 : Fin 2) * 1024 + 1 * k.val = C.val; rw [e1, hC]; show n % 4 * 1024 + 1 * k.val = _; omega

end Cert.KernelIdeal.Blocks

end
-- ==== Proof.BlockSum.lean ====
/-
  A sum over 4096 consecutive indices is the sum, over four consecutive stretches of 1024, of the stretches' sums.
  This is the one law that joins the two programs of this certificate: a matrix product whose contraction runs over
  all 4096 columns at once against the same product accumulated stretch by stretch. It holds in every commutative
  additive monoid — only associativity and commutativity of `+` are used, never cancellation or distributivity —, so
  it holds on the extended reals with no finiteness hypothesis.
-/
import Mathlib.Algebra.BigOperators.Group.Finset.Basic
import Mathlib.Data.Fintype.BigOperators

namespace Cert.BlockSum

open Finset

variable {β : Type*} [AddCommMonoid β]

/-- Over the naturals: `n` consecutive stretches of `B` terms are the first `B * n` terms. -/
theorem sum_range_blocks (B : ℕ) (f : ℕ → β) : ∀ n : ℕ,
    ∑ s ∈ range n, ∑ k ∈ range B, f (B * s + k) = ∑ k ∈ range (B * n), f k
  | 0 => by simp
  | n + 1 => by
    rw [Finset.sum_range_succ, sum_range_blocks B f n, Nat.mul_succ, Finset.sum_range_add]

/-- A function on `Fin 4096` continued by zero to the naturals. -/
def ext0 (f : Fin 4096 → β) (k : ℕ) : β := if h : k < 4096 then f ⟨k, h⟩ else 0

theorem ext0_of_lt (f : Fin 4096 → β) (k : ℕ) (h : k < 4096) : ext0 f k = f ⟨k, h⟩ := dif_pos h

/-- THE LAW. If `g s k` is term `1024 s + k` of `f` for each of the four stretches `s`, the four stretch sums add up to
    the whole sum. -/
theorem sum_four_blocks (f : Fin 4096 → β) (g : ℕ → Fin 1024 → β)
    (hg : ∀ (s : ℕ) (hs : s < 4) (k : Fin 1024), g s k = f ⟨1024 * s + k.val, by have := k.isLt; omega⟩) :
    ∑ s ∈ range 4, ∑ k : Fin 1024, g s k = ∑ k : Fin 4096, f k := by
  have hf : ∑ k : Fin 4096, f k = ∑ k ∈ range (1024 * 4), ext0 f k := by
    rw [← Fin.sum_univ_eq_sum_range (ext0 f) (1024 * 4)]
    exact Finset.sum_congr rfl fun k _ => (ext0_of_lt f k.val k.isLt).symm
  rw [hf, ← sum_range_blocks 1024 (ext0 f) 4]
  refine Finset.sum_congr rfl fun s hs => ?_
  have hs4 : s < 4 := Finset.mem_range.mp hs
  rw [← Fin.sum_univ_eq_sum_range (fun k => ext0 f (1024 * s + k)) 1024]
  refine Finset.sum_congr rfl fun k _ => ?_
  rw [hg s hs4 k]
  exact (ext0_of_lt f _ _).symm

end Cert.BlockSum
-- ==== Proof.Fold.lean ====
/-
  The kernel's result at one entry, on the extended reals.
  Output block (i, j) is visited by four consecutive grid points, k = 0, 1, 2, 3: the first stores
  `0 + x₀ · w₀ᵀ`, each later one adds its `x_k · w_kᵀ` to what the block held, and the last one's contents are written
  back. So entry (P, Q) of the result is `0` plus, for each of the four points, the sum over that point's 1024 columns
  of activations' row `P` against weights' row `Q` — and the four stretches of 1024 columns are exactly the 4096
  columns, each once: `∑ k < 4096, A(P, k) · W(Q, k)`. Regrouping a sum needs only that `+` is associative and
  commutative, which it is on the extended reals; no entry has to be finite.
-/
import proofs.«400016_j26877905339289_3_alg».proof.Proof.Gen.KernelIdeal.Value
import proofs.«400016_j26877905339289_3_alg».proof.Proof.Payload
import proofs.«400016_j26877905339289_3_alg».proof.Proof.Blocks
import proofs.«400016_j26877905339289_3_alg».proof.Proof.BlockSum

noncomputable section

namespace Cert.KernelIdeal.Fold

open Cert.KernelIdeal Cert.KernelIdeal.Gen Cert.KernelIdeal.Blocks Idealize.ShloMosaic Idealize.ShloMosaic.TcCoe
  Idealize.SL.Sem Idealize.ShloMosaic.ValueIdx

variable (m : (ℓ : Loc nD τ sig) → Buf (Elt Ideal) ℓ)

/-- Point `n`'s product of activations' entry (p, k) with weights' entry (q, k), both inside the point's blocks
    (zero past the grid, where it is never used). -/
def term (c : Dev nD) (n : ℕ) (p : Fin 1024) (q : Fin 2048) (k : Fin 1024) : EReal :=
  if h : n < cfg0.N then xblk m c n h (ix2 p k) * wblk m c n h (ix2 q k) else 0

/-- What point `n` adds to entry `y` of the output block: its 1024 columns' products, summed. -/
def addend (c : Dev nD) (n : ℕ) (y : S1024x2048.Idx) : EReal := ∑ k : Fin 1024, term m c n (y 0) (y 1) k

/-- The first point of a run leaves `0 + ` its addend. -/
theorem reset_apply (c : Dev nD) (n : ℕ) (h : n < cfg0.N) (y : S1024x2048.Idx) :
    Value.reset2 m c n h y = 0 + addend m c n y := by
  obtain ⟨p, q, rfl⟩ : ∃ (p : Fin 1024) (q : Fin 2048), y = ix2 p q := ⟨y 0, y 1, eq_ix2 y⟩
  unfold Value.reset2
  refine (Payload.step_apply (xblk m c n h) (k0_pay1 (F := Ideal)) (wblk m c n h) p q).trans ?_
  rw [Payload.zero_apply]
  unfold addend term
  simp only [dif_pos h]

/-- Each later point adds its addend to what the block held. -/
theorem step_apply (c : Dev nD) (n : ℕ) (h : n < cfg0.N) (acc : Vec Ideal S1024x2048 .f32) (y : S1024x2048.Idx) :
    Value.step2 m c n h acc y = acc y + addend m c n y := by
  obtain ⟨p, q, rfl⟩ : ∃ (p : Fin 1024) (q : Fin 2048), y = ix2 p q := ⟨y 0, y 1, eq_ix2 y⟩
  unfold Value.step2
  refine (Payload.step_apply (xblk m c n h) acc (wblk m c n h) p q).trans ?_
  unfold addend term
  simp only [dif_pos h]

/-- THE KERNEL'S RESULT at entry (P, Q): activations' row `P` against weights' row `Q`, all 4096 columns. -/
theorem G2_apply (c : Dev nD) (P : Fin 8192) (Q : Fin 4096) :
    Value.G2 m c (ix2 P Q) = ∑ k : Fin 4096, acts m c (ix2 P k) * wts m c (ix2 Q k) := by
  have hP := P.isLt
  have hQ := Q.isLt
  have hN : cfg0.N = 64 := N_0
  have hr : Value.run2Of (ix2 P Q) = 2 * (P.val / 1024) + Q.val / 2048 := by
    show 2 * (P.val / 1024 - 0) + 1 * (Q.val / 2048 - 0) = _
    omega
  have hp : (Value.loc2Of (ix2 P Q) 0).val = P.val % 1024 := rfl
  have hq : (Value.loc2Of (ix2 P Q) 1).val = Q.val % 2048 := rfl
  unfold Value.G2
  rw [dif_pos (by rw [hr, hN]; omega)]
  rw [Pipeline.accAt_add_apply (Value.reset2 m c) (Value.step2 m c) (fun _ => (0 : EReal)) (addend m c)
    (4 * Value.run2Of (ix2 P Q)) 3 (fun h i => reset_apply m c _ h i) (fun n h acc i _ _ => step_apply m c n h acc i)
    3 le_rfl _ (Value.loc2Of (ix2 P Q))]
  rw [zero_add]
  unfold addend
  refine BlockSum.sum_four_blocks (fun k => acts m c (ix2 P k) * wts m c (ix2 Q k))
    (fun s k => term m c (4 * Value.run2Of (ix2 P Q) + s) (Value.loc2Of (ix2 P Q) 0) (Value.loc2Of (ix2 P Q) 1) k) ?_
  intro s hs k
  have hk := k.isLt
  have hlt : 4 * Value.run2Of (ix2 P Q) + s < cfg0.N := by rw [hr, hN]; omega
  show term m c (4 * Value.run2Of (ix2 P Q) + s) (Value.loc2Of (ix2 P Q) 0) (Value.loc2Of (ix2 P Q) 1) k = _
  unfold term
  rw [dif_pos hlt]
  exact congrArg₂ (· * ·)
    (xblk_apply m c _ hlt (Value.loc2Of (ix2 P Q) 0) k P ⟨1024 * s + k.val, by omega⟩
      (by rw [hp, hr]; omega) (by show 1024 * s + k.val = _; rw [hr]; omega))
    (wblk_apply m c _ hlt (Value.loc2Of (ix2 P Q) 1) k Q ⟨1024 * s + k.val, by omega⟩
      (by rw [hq, hr]; omega) (by show 1024 * s + k.val = _; rw [hr]; omega))

end Cert.KernelIdeal.Fold

end
-- ==== Proof.Weights.lean ====
/-
  The weights the kernel multiplies by are the weights the reference multiplies by.
  Both programs decode them with the same host operations, one for one: the two 16-bit codes of each packed word
  (`(Q >> 16) & 0xFFFF` and `Q & 0xFFFF`, each brought into range as jnp's indexing does), the two rows gathered from the
  codebook, `grid[hi] + s · grid[lo]` with the same scale word `s`, and the reshape to [4096, 4096]. The kernel's side
  then narrows the result to bf16, which is the identity on extended reals. So the array the region finds in its second
  window is, entry by entry, the reference's reshaped stage — of the same two arguments.
-/
import proofs.«400016_j26877905339289_3_alg».proof.Proof.Gen.KernelIdeal.Frame
import proofs.«400016_j26877905339289_3_alg».proof.Proof.Gen.ReferenceIdeal.Read
import Idealize.ShloMosaic.Lib.StableHlo.Run

noncomputable section

namespace Cert.Bridge.Weights

open Idealize.ShloMosaic Idealize.ShloMosaic.TcCoe Idealize.SL.Sem Idealize.ShloMosaic.StableHlo

variable (m : (ℓ : Loc KernelIdeal.nD KernelIdeal.τ KernelIdeal.sig) → Buf (Elt Ideal) ℓ)

/-- The decoded weights as the region finds them are the reference's reshaped stage of the kernel's own code and
    codebook arguments: the host operations before the region, composed, are the reference's, and the closing
    narrowing to bf16 changes no extended real. -/
theorem wts_eq (c : Dev KernelIdeal.nD) :
    (KernelIdeal.Gen.V m c KernelIdeal.main_call0_v24 : KernelIdeal.S4096x4096.Idx → EReal)
      = ReferenceIdeal.Read.val_main_v23 (F := Ideal) (m ((c : Thread KernelIdeal.nD KernelIdeal.τ).loc KernelIdeal.main_arg1))
          (m ((c : Thread KernelIdeal.nD KernelIdeal.τ).loc KernelIdeal.main_arg2)) := by
  dsimp only [KernelIdeal.Gen.V, KernelIdeal.Gen.hostOps0]
  after_results_simp
  rfl

end Cert.Bridge.Weights

end
-- ==== Proof.RefSum.lean ====
/-
  The reference's result at one entry, on the extended reals.
  The reference transposes the decoded weights `W` [4096, 4096] and contracts the activations' columns against the
  transposed rows: entry (P, C) of `A · Wᵀ` is `∑ k, A(P, k) · W(C, k)` over all 4096 columns `k` at once.
-/
import proofs.«400016_j26877905339289_3_alg».proof.Proof.Gen.ReferenceIdeal.Read
import Idealize.ShloMosaic.Lib.ValueIdx

noncomputable section

namespace Cert.Bridge.RefSum

open Cert.ReferenceIdeal Cert.ReferenceIdeal.Read Idealize.ShloMosaic Idealize.ShloMosaic.ValueIdx

/-- Entry (P, C) of the reference's product: row `P` of the activations against row `C` of the decoded weights. -/
theorem result_apply (A : (⟨S8192x4096, .f32⟩ : BufTy).Contents (Elt Ideal)) (Q : (⟨S4096x512, .i32⟩ : BufTy).Contents (Elt Ideal))
    (G : (⟨S65536x8, .f32⟩ : BufTy).Contents (Elt Ideal)) (P : Fin 8192) (C : Fin 4096) :
    val_main_v25 (F := Ideal) A Q G (ix2 P C) = ∑ k : Fin 4096, A (ix2 P k) * val_main_v23 (F := Ideal) Q G (ix2 C k) := by
  rw [val_main_v25_apply]
  refine Finset.sum_congr rfl fun k _ => ?_
  rw [val_main_v24_apply]
  have el : lidx_main_v25 (ix2 P C) k = ix2 P k := funext fun a => Fin.ext (by
    match a with
    | ⟨0, _⟩ => rfl
    | ⟨1, _⟩ => rfl)
  have er : idx_main_v24 (ridx_main_v25 (ix2 P C) k) = ix2 C k := funext fun a => Fin.ext (by
    match a with
    | ⟨0, _⟩ => rfl
    | ⟨1, _⟩ => rfl)
  rw [el, er]

end Cert.Bridge.RefSum

end
-- ==== Proof.Result.lean ====
/-
  The two results are one array.
  At entry (P, Q) the kernel leaves `∑ k < 4096, A(P, k) · W(Q, k)` (the four-point fold, regrouped) and the
  reference computes `∑ k < 4096, A(P, k) · W(Q, k)` (one contraction against the transposed weights), with `A` the
  activations argument on both sides and `W` the same decoded weights of the same code and codebook arguments.
-/
import proofs.«400016_j26877905339289_3_alg».proof.Proof.Fold
import proofs.«400016_j26877905339289_3_alg».proof.Proof.Weights
import proofs.«400016_j26877905339289_3_alg».proof.Proof.RefSum

noncomputable section

namespace Cert.Bridge

open Idealize.ShloMosaic Idealize.ShloMosaic.TcCoe Idealize.SL.Sem Idealize.ShloMosaic.ValueIdx

variable (m : (ℓ : Loc KernelIdeal.nD KernelIdeal.τ KernelIdeal.sig) → Buf (Elt Ideal) ℓ)

/-- The reference's product of the kernel's three arguments is the array the kernel's run ends with. -/
theorem result_eq (c : Dev KernelIdeal.nD) :
    ReferenceIdeal.Read.val_main_v25 (F := Ideal)
        (m ((c : Thread KernelIdeal.nD KernelIdeal.τ).loc KernelIdeal.main_arg0))
        (m ((c : Thread KernelIdeal.nD KernelIdeal.τ).loc KernelIdeal.main_arg1))
        (m ((c : Thread KernelIdeal.nD KernelIdeal.τ).loc KernelIdeal.main_arg2))
      = KernelIdeal.Value.G2 m c := by
  funext i
  obtain ⟨P, Q, rfl⟩ : ∃ (P : Fin 8192) (Q : Fin 4096), i = ix2 P Q := ⟨i 0, i 1, eq_ix2 i⟩
  rw [RefSum.result_apply, KernelIdeal.Fold.G2_apply]
  refine Finset.sum_congr rfl fun k _ => ?_
  exact congrArg₂ (· * ·) (congrFun (KernelIdeal.Gen.V_main_arg0 m c).symm (ix2 P k))
    (congrFun (Weights.wts_eq m c).symm (ix2 Q k))

end Cert.Bridge

end
-- ==== Proof.lean ====
/-
  A residual-vector-quantised matrix product: `out = A · Wᵀ` with `A` [8192, 4096] the activations and `W` [4096, 4096]
  decoded from packed 16-bit code pairs, `W = grid[hi] + s · grid[lo]` reshaped, by the same host operations in both
  programs. The kernel narrows both operands to bf16 (the identity on extended reals) and tiles the product over a
  [8, 2, 4] grid: output block (i, j) is zeroed at k = 0 and accumulates `A_{ik} · W_{jk}ᵀ` over the four column
  stretches k. The reference contracts all 4096 columns at once against the transposed weights. On the extended reals
  the two are the same sum regrouped — only associativity and commutativity of `+`, so the precondition (finite
  inputs) is never opened.

  The three frames are the kernels' generated runs weakened and the reference's generated run weakened; the ideal
  pass rewrote nothing, so `preserves` is trivial; `algebraic` sets the kernel's generated value run (the result array
  as the four-point fold) beside the reference's generated run and closes by `Cert.Bridge.result_eq`:
  Proof/Payload.lean (one point's body at an entry), Proof/Blocks.lean (which array entries a point's blocks hold),
  Proof/Fold.lean with Proof/BlockSum.lean (the fold at an entry is the whole contraction), Proof/RefSum.lean (the
  reference at an entry), Proof/Weights.lean (the two weight arrays are one), Proof/Result.lean (the join).
-/
import proofs.«400016_j26877905339289_3_alg».proof.Defs
import proofs.«400016_j26877905339289_3_alg».proof.Proof.Gen.Kernel.Frame
import proofs.«400016_j26877905339289_3_alg».proof.Proof.Gen.KernelIdeal.Value
import proofs.«400016_j26877905339289_3_alg».proof.Proof.Gen.Pre_finite_inputs
import proofs.«400016_j26877905339289_3_alg».proof.Proof.Gen.ReferenceIdeal.Run
import proofs.«400016_j26877905339289_3_alg».proof.Proof.Gen.ReferenceIdeal.Read
import proofs.«400016_j26877905339289_3_alg».proof.Proof.Result
import Idealize.ShloMosaic.Adequacy
import Idealize.ShloMosaic.Init

noncomputable section

namespace Cert.Proof

open Idealize.ShloMosaic Idealize.SL.Sem

/-- The idealized kernel terminates, faultless, with its arguments unchanged: its value run, the result dropped. -/
theorem frame_KernelIdeal : frame_KernelIdeal := fun m ρ _ =>
  (θ_run Cert.KernelIdeal.defs _ _).mono (fun _ h c => (h c).2) (Cert.KernelIdeal.Value.run (F := Ideal) m ρ)

/-- So does the idealized reference: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the three arguments both programs end, the kernel's result array at the four-point
    fold and the reference's at its one contraction; the two are equal entry by entry (`Cert.Bridge.result_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v25_eq _ _ _).trans (Cert.Bridge.result_eq m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
